-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x32 : Shape := ⟨2, ![11008, 32]⟩
abbrev S4096 : Shape := ⟨1, ![4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg5 : FVec F S11008 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S11008 .f32 := Host.absf main_arg5
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S4x2048x4096 .f32) (main_arg1 : IVec S11008x2048 32) (main_arg2 : FVec F S11008x32 .f32) (main_arg3 : FVec F S11008x32 .f32) (main_arg4 : FVec F S4096 .f32) (main_arg5 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4x2048x4096 : Shape := ⟨3, ![4, 2048, 4096]⟩
abbrev S11008x2048 : Shape := ⟨2, ![11008, 2048]⟩
abbrev S11008x32 : Shape := ⟨2, ![11008, 32]⟩
abbrev S4096 : Shape := ⟨1, ![4096]⟩
abbrev S11008 : Shape := ⟨1, ![11008]⟩
abbrev S8192x4096 : Shape := ⟨2, ![8192, 4096]⟩
abbrev S8192x2048x2 : Shape := ⟨3, ![8192, 2048, 2]⟩
abbrev S8192x2x2048 : Shape := ⟨3, ![8192, 2, 2048]⟩
abbrev S2048x2 : Shape := ⟨2, ![2048, 2]⟩
abbrev S2x2048 : Shape := ⟨2, ![2, 2048]⟩
abbrev S1x4096 : Shape := ⟨2, ![1, 4096]⟩
abbrev S1x11008 : Shape := ⟨2, ![1, 11008]⟩
abbrev S8192x11008 : Shape := ⟨2, ![8192, 11008]⟩
abbrev S256x4096 : Shape := ⟨2, ![256, 4096]⟩
abbrev S128x2048 : Shape := ⟨2, ![128, 2048]⟩
abbrev S128x32 : Shape := ⟨2, ![128, 32]⟩
abbrev S1x128 : Shape := ⟨2, ![1, 128]⟩
abbrev S256x128 : Shape := ⟨2, ![256, 128]⟩
abbrev S128x4096 : Shape := ⟨2, ![128, 4096]⟩
abbrev S128x32x1 : Shape := ⟨3, ![128, 32, 1]⟩
abbrev S128x32x64 : Shape := ⟨3, ![128, 32, 64]⟩
abbrev S4x2048x11008 : Shape := ⟨3, ![4, 2048, 11008]⟩

abbrev nBuf : Space → Nat
  | .hbm => 16
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S4096, .f32⟩
  | .hbm, ⟨5, _⟩ => ⟨S11008, .f32⟩
  | .hbm, ⟨6, _⟩ => ⟨S8192x4096, .f32⟩
  | .hbm, ⟨7, _⟩ => ⟨S8192x2048x2, .f32⟩
  | .hbm, ⟨8, _⟩ => ⟨S8192x2x2048, .f32⟩
  | .hbm, ⟨9, _⟩ => ⟨S8192x4096, .f32⟩
  | .hbm, ⟨10, _⟩ => ⟨S2048x2, .f32⟩
  | .hbm, ⟨11, _⟩ => ⟨S2x2048, .f32⟩
  | .hbm, ⟨12, _⟩ => ⟨S1x4096, .f32⟩
  | .hbm, ⟨13, _⟩ => ⟨S1x11008, .f32⟩
  | .hbm, ⟨14, _⟩ => ⟨S8192x11008, .f32⟩
  | .hbm, ⟨15, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S128x2048, .i32⟩
  | .local _ .vmem, ⟨3, _⟩ => ⟨S128x2048, .i32⟩
  | .local _ .vmem, ⟨4, _⟩ => ⟨S128x32, .f32⟩
  | .local _ .vmem, ⟨5, _⟩ => ⟨S128x32, .f32⟩
  | .local _ .vmem, ⟨6, _⟩ => ⟨S128x32, .f32⟩
  | .local _ .vmem, ⟨7, _⟩ => ⟨S128x32, .f32⟩
  | .local _ .vmem, ⟨8, _⟩ => ⟨S1x4096, .f32⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S8192x4096_S8192x2048x2 : S8192x4096.ShapeCasts S8192x2048x2
  transposes_S8192x2048x2_S8192x2x2048_0_2_1 : S8192x2048x2.Transposes [0, 2, 1] S8192x2x2048
  shapeCasts_S8192x2x2048_S8192x4096 : S8192x2x2048.ShapeCasts S8192x4096
  shapeCasts_S4096_S2048x2 : S4096.ShapeCasts S2048x2
  transposes_S2048x2_S2x2048_1_0 : S2048x2.Transposes [1, 0] S2x2048
  shapeCasts_S2x2048_S1x4096 : S2x2048.ShapeCasts S1x4096
  shapeCasts_S11008_S1x11008 : S11008.ShapeCasts S1x11008
  inb_S128x2048_S128x2048_0_0 : ∀ a, (![0, 0] : Fin 2 → Nat) a + S128x2048.size a ≤ S128x2048.size a
  h_S128x2048 : 0 < S128x2048.numel
  inb_S128x32_S128x32_0_0 : ∀ a, (![0, 0] : Fin 2 → Nat) a + S128x32.size a ≤ S128x32.size a
  h_S128x32 : 0 < S128x32.numel
  shapeCasts_S128x32_S128x32x1 : S128x32.ShapeCasts S128x32x1
  shapeCasts_S128x32x1_S128x32x1 : S128x32x1.ShapeCasts S128x32x1
  broadcasts_S128x32x1_S128x32x64 : S128x32x1.Broadcasts S128x32x64
  shapeCasts_S128x32x64_S128x2048 : S128x32x64.ShapeCasts S128x2048
  inb_S128x4096_S128x2048_0_0 : ∀ a, (![0, 0] : Fin 2 → Nat) a + S128x2048.size a ≤ S128x4096.size a
  shapeCasts_S128x2048_S128x2048 : S128x2048.ShapeCasts S128x2048
  inb_S128x4096_S128x2048_0_2048 : ∀ a, (![0, 2048] : Fin 2 → Nat) a + S128x2048.size a ≤ S128x4096.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S8192x11008_S4x2048x11008 : S8192x11008.ShapeCasts S4x2048x11008
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S11008x2048.size a
  hwx0_1 : ∀ i : grid0.Coords, EltTy.bits .i32 = 32 ∨ (Rect.block (s := S11008x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S11008x32.size a
  hwx0_3 : ∀ i : grid0.Coords, EltTy.bits .f32 = 32 ∨ (Rect.block (s := S11008x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x11008.size a
  hwx0_5 : ∀ i : grid0.Coords, EltTy.bits .f32 = 32 ∨ (Rect.block (s := S1x11008) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S8192x11008.size a
  hwx0_6 : ∀ i : grid0.Coords, EltTy.bits .f32 = 32 ∨ (Rect.block (s := S8192x11008) S256x128.size (cc0_transform_6 i) (hinb0_6 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_v3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x32 : Shape := ⟨2, ![11008, 32]⟩
abbrev S4096 : Shape := ⟨1, ![4096]⟩
abbrev S11008 : Shape := ⟨1, ![11008]⟩
abbrev S1x1x4096 : Shape := ⟨3, ![1, 1, 4096]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S4x2048x11008 : Shape := ⟨3, ![4, 2048, 11008]⟩
abbrev S1x1x11008 : Shape := ⟨3, ![1, 1, 11008]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S4096, .f32⟩
  | .hbm, ⟨5, _⟩ => ⟨S11008, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S_, .i32⟩
  | .hbm, ⟨10, _⟩ => ⟨S11008x2048, .i32⟩
  | .hbm, ⟨11, _⟩ => ⟨S11008x2048, .i32⟩
  | .hbm, ⟨12, _⟩ => ⟨S_, .i32⟩
  | .hbm, ⟨13, _⟩ => ⟨S11008x2048, .i32⟩
  | .hbm, ⟨14, _⟩ => ⟨S11008x2048, .i32⟩
  | .hbm, ⟨15, _⟩ => ⟨S_, .i32⟩
  | .hbm, ⟨16, _⟩ => ⟨S11008x2048, .i32⟩
  | .hbm, ⟨17, _⟩ => ⟨S11008x2048, .i32⟩
  | .hbm, ⟨18, _⟩ => ⟨S11008x2048x1, .i32⟩
  | .hbm, ⟨19, _⟩ => ⟨S11008x2048x1, .i32⟩
  | .hbm, ⟨20, _⟩ => ⟨S11008x2048x2, .i32⟩
  | .hbm, ⟨21, _⟩ => ⟨S11008x4096, .i32⟩
  | .hbm, ⟨22, _⟩ => ⟨S11008x4096, .f32⟩
  | .hbm, ⟨23, _⟩ => ⟨S11008x32x128, .f32⟩
  | .hbm, ⟨24, _⟩ => ⟨S11008x32x1, .f32⟩
  | .hbm, ⟨25, _⟩ => ⟨S11008x32x128, .f32⟩
  | .hbm, ⟨26, _⟩ => ⟨S11008x32x128, .f32⟩
  | .hbm, ⟨27, _⟩ => ⟨S11008x32x1, .f32⟩
  | .hbm, ⟨28, _⟩ => ⟨S11008x32x128, .f32⟩
  | .hbm, ⟨29, _⟩ => ⟨S11008x32x128, .f32⟩
  | .hbm, ⟨30, _⟩ => ⟨S11008x4096, .f32⟩
  | .hbm, ⟨31, _⟩ => ⟨S4x2048x11008, .f32⟩
  | .hbm, ⟨32, _⟩ => ⟨S1x1x11008, .f32⟩
  | .hbm, ⟨33, _⟩ => ⟨S4x2048x11008, .f32⟩
  | .hbm, ⟨34, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute, and the one law that joins them.

  A weight row `o` is stored packed: word `k` of the row (`k < 2048`) holds two 4-bit codes, the code of input
  position `2k` in bits 4..7 and the code of position `2k + 1` in bits 0..3. Position `i` belongs to group `i / 128`,
  and its weight is `(code − zero[o, group]) · scale[o, group]`. The result at `(b, s, o)` is
  `Σ_i (x[b, s, i] · inscale[i]) · weight[o, i] + bias[o]`, the sum over the 4096 input positions.

  One program adds the terms in the order of the positions `i`; the other lists all even positions first and all odd
  positions after them: its position `k'` is the original position `2 · (k' mod 2048) + k' / 2048`. That map is a
  bijection of the 4096 positions, so the two sums have the same terms, and a finite sum does not depend on the order
  of its terms (on the extended reals too: addition is commutative and associative there, infinities included).
-/
import Idealize.ShloMosaic.Lib.ValueIdx
import Idealize.ShloMosaic.PureOps.Ideal.Laws

noncomputable section

namespace Cert.Awq

open Idealize.ShloMosaic Idealize.ShloMosaic.ValueIdx
open scoped BigOperators

/-! ## The even positions first, then the odd ones -/

/-- The original position of the `k'`-th entry of the list "even positions, then odd positions". -/
def orig (k' : Fin 4096) : Fin 4096 := ⟨2 * (k'.val % 2048) + k'.val / 2048, by omega⟩

/-- Where original position `i` stands in that list. -/
def listed (i : Fin 4096) : Fin 4096 := ⟨(i.val % 2) * 2048 + i.val / 2, by omega⟩

/-- Listing the even positions first and the odd ones after is a bijection of the 4096 positions. -/
def origEquiv : Fin 4096 ≃ Fin 4096 where
  toFun := orig
  invFun := listed
  left_inv k' := Fin.ext (by simp only [orig, listed]; omega)
  right_inv i := Fin.ext (by simp only [orig, listed]; omega)

/-- A sum over the positions in the listed order is the sum in the original order. -/
theorem sum_orig {M : Type*} [AddCommMonoid M] (f : Fin 4096 → M) : ∑ k' : Fin 4096, f (orig k') = ∑ i : Fin 4096, f i :=
  Equiv.sum_comp origEquiv f

/-! ## The weights -/

/-- The 4-bit code of position `i` in its packed word `w`: the high nibble for an even position, the low one for an odd. -/
def code (w : BitVec 32) (i : Nat) : BitVec 32 :=
  if i % 2 = 0 then IntOp.andi (IntOp.shrsi .vector w 4#32) 15#32 else IntOp.andi w 15#32

/-- The dequantized weight of output row `o` at input position `i`. -/
def weight (q : (⟨2, ![11008, 2048]⟩ : Shape).Idx → BitVec 32) (sc z : (⟨2, ![11008, 32]⟩ : Shape).Idx → EReal)
    (o : Fin 11008) (i : Fin 4096) : EReal :=
  ((FloatOps.sitofp (F := Ideal) .f32 (code (q (ix2 o (⟨i.val / 2, by omega⟩ : Fin 2048))) i.val) : EReal)
      - z (ix2 o (⟨i.val / 128, by omega⟩ : Fin 32)))
    * sc (ix2 o (⟨i.val / 128, by omega⟩ : Fin 32))

/-- The result at batch `b`, row `s`, output feature `o`. -/
def outAt (x : (⟨3, ![4, 2048, 4096]⟩ : Shape).Idx → EReal) (q : (⟨2, ![11008, 2048]⟩ : Shape).Idx → BitVec 32)
    (sc z : (⟨2, ![11008, 32]⟩ : Shape).Idx → EReal) (is : (⟨1, ![4096]⟩ : Shape).Idx → EReal)
    (bias : (⟨1, ![11008]⟩ : Shape).Idx → EReal) (b : Fin 4) (s : Fin 2048) (o : Fin 11008) : EReal :=
  (∑ i : Fin 4096, (x (ix3 b s i) * is (ix1 i)) * weight q sc z o i) + bias (ix1 o)

/-- The whole result array. -/
def out (x : (⟨3, ![4, 2048, 4096]⟩ : Shape).Idx → EReal) (q : (⟨2, ![11008, 2048]⟩ : Shape).Idx → BitVec 32)
    (sc z : (⟨2, ![11008, 32]⟩ : Shape).Idx → EReal) (is : (⟨1, ![4096]⟩ : Shape).Idx → EReal)
    (bias : (⟨1, ![11008]⟩ : Shape).Idx → EReal) : (⟨3, ![4, 2048, 11008]⟩ : Shape).Idx → EReal :=
  fun j => outAt x q sc z is bias (j 0) (j 1) (j 2)

/-- The same result with the positions listed even first, then odd: what a program that permutes the contracted axis of
    both operands the same way adds up. -/
theorem outAt_listed (x : (⟨3, ![4, 2048, 4096]⟩ : Shape).Idx → EReal) (q : (⟨2, ![11008, 2048]⟩ : Shape).Idx → BitVec 32)
    (sc z : (⟨2, ![11008, 32]⟩ : Shape).Idx → EReal) (is : (⟨1, ![4096]⟩ : Shape).Idx → EReal)
    (bias : (⟨1, ![11008]⟩ : Shape).Idx → EReal) (b : Fin 4) (s : Fin 2048) (o : Fin 11008) :
    (∑ k' : Fin 4096, (x (ix3 b s (orig k')) * is (ix1 (orig k'))) * weight q sc z o (orig k')) + bias (ix1 o)
      = outAt x q sc z is bias b s o := by
  unfold outAt
  rw [sum_orig (fun i => (x (ix3 b s i) * is (ix1 i)) * weight q sc z o i)]

end Cert.Awq

end
-- ==== Proof.RefValue.lean ====
/-
  The reference's result, one entry at a time, is the specified function.
-/
import proofs.«425637_j30339648979201_3_alg».proof.Proof.Gen.ReferenceIdeal.Read
import proofs.«425637_j30339648979201_3_alg».proof.Proof.Spec
import Idealize.ShloMosaic.Lib.ValueIdx
import Idealize.ShloMosaic.Lib.Pipeline.Value
import Idealize.ShloMosaic.Lib.KernelVsHost

noncomputable section

namespace Cert.ReferenceIdeal.RefValue

open Idealize.ShloMosaic Idealize.ShloMosaic.ValueIdx Cert.ReferenceIdeal Cert.ReferenceIdeal.Gen Cert.ReferenceIdeal.Read
open scoped BigOperators

/-- Entry (o, k, 0) of the joined array is the high nibble of word k of row o. -/
theorem joined_high (x1 : (⟨S11008x2048, .i32⟩ : BufTy).Contents (Elt Ideal)) (o : Fin 11008) (k : Fin 2048) :
    val_main_v11 (F := Ideal) x1 (ix3 o k (0 : Fin 2))
      = IntOp.andi (IntOp.shrsi .vector (x1 (ix2 o k)) 4#32) 15#32 := by
  unfold val_main_v11
  refine (concatenate_pair_apply_left (t := S11008x2048x2) (s₁ := S11008x2048x1) (s₂ := S11008x2048x1) (2 : Fin 3)
    (val_main_v9 (F := Ideal) x1) (val_main_v10 (F := Ideal) x1)
    concatenates_S11008x2048x1_S11008x2048x1_S11008x2048x2_d2 (ix3 o k (0 : Fin 2)) rfl (ix3 o k (0 : Fin 1))
    (fun b => by
      match b with
      | ⟨0, _⟩ => rfl
      | ⟨1, _⟩ => rfl
      | ⟨2, _⟩ => rfl)).trans ?_
  rw [val_main_v9_apply, val_main_v8_apply, val_main_v6_apply, val_main_v7_apply, val_main_v5_apply,
    val_main_c_0_apply, val_main_c_1_apply, shrsi_unit .host .vector]
  have e : idx_main_v9 (ix3 o k (0 : Fin 1)) = ix2 o k :=
    funext fun a => Fin.ext (by match a with | ⟨0, _⟩ => rfl | ⟨1, _⟩ => rfl)
  rw [e]

/-- Entry (o, k, 1) of the joined array is the low nibble of word k of row o. -/
theorem joined_low (x1 : (⟨S11008x2048, .i32⟩ : BufTy).Contents (Elt Ideal)) (o : Fin 11008) (k : Fin 2048) :
    val_main_v11 (F := Ideal) x1 (ix3 o k (1 : Fin 2)) = IntOp.andi (x1 (ix2 o k)) 15#32 := by
  unfold val_main_v11
  refine (concatenate_pair_apply_right (t := S11008x2048x2) (s₁ := S11008x2048x1) (s₂ := S11008x2048x1) (2 : Fin 3)
    (val_main_v9 (F := Ideal) x1) (val_main_v10 (F := Ideal) x1)
    concatenates_S11008x2048x1_S11008x2048x1_S11008x2048x2_d2 (ix3 o k (1 : Fin 2)) rfl rfl (ix3 o k (0 : Fin 1))
    (fun b hb => by
      match b with
      | ⟨0, _⟩ => rfl
      | ⟨1, _⟩ => rfl
      | ⟨2, _⟩ => exact absurd rfl hb)
    rfl).trans ?_
  rw [val_main_v10_apply, val_main_v4_apply, val_main_v3_apply, val_main_c_apply]
  have e : idx_main_v10 (ix3 o k (0 : Fin 1)) = ix2 o k :=
    funext fun a => Fin.ext (by match a with | ⟨0, _⟩ => rfl | ⟨1, _⟩ => rfl)
  rw [e]

/-- Position i of row o of the [11008,4096] array of codes is the code of position i in word i / 2. -/
theorem codes_apply (x1 : (⟨S11008x2048, .i32⟩ : BufTy).Contents (Elt Ideal)) (o : Fin 11008) (i : Fin 4096) :
    val_main_v12 (F := Ideal) x1 (ix2 o i)
      = Cert.Awq.code (x1 (ix2 o (⟨i.val / 2, by omega⟩ : Fin 2048))) i.val := by
  rw [val_main_v12_apply]
  unfold Cert.Awq.code
  rcases Nat.mod_two_eq_zero_or_one i.val with h | h
  · rw [if_pos h]
    have e : idx_main_v12 (ix2 o i) = ix3 o (⟨i.val / 2, by omega⟩ : Fin 2048) (0 : Fin 2) :=
      funext fun a => Fin.ext (by
        match a with
        | ⟨0, _⟩ => show (o.val * 4096 + i.val) / 4096 = o.val; omega
        | ⟨1, _⟩ => show (o.val * 4096 + i.val) / 2 % 2048 = i.val / 2; omega
        | ⟨2, _⟩ => show (o.val * 4096 + i.val) % 2 = 0; omega)
    rw [e]
    exact joined_high x1 o _
  · rw [if_neg (by omega)]
    have e : idx_main_v12 (ix2 o i) = ix3 o (⟨i.val / 2, by omega⟩ : Fin 2048) (1 : Fin 2) :=
      funext fun a => Fin.ext (by
        match a with
        | ⟨0, _⟩ => show (o.val * 4096 + i.val) / 4096 = o.val; omega
        | ⟨1, _⟩ => show (o.val * 4096 + i.val) / 2 % 2048 = i.val / 2; omega
        | ⟨2, _⟩ => show (o.val * 4096 + i.val) % 2 = 1; omega)
    rw [e]
    exact joined_low x1 o _

/-- Position i of row o sits at (o, i / 128, i % 128) of the [11008,32,128] view; the entry there is the converted code of
    position i. -/
theorem grouped_codes_apply (x1 : (⟨S11008x2048, .i32⟩ : BufTy).Contents (Elt Ideal)) (o : Fin 11008) (i : Fin 4096) :
    val_main_v14 (F := Ideal) x1 (ix3 o (⟨i.val / 128, by omega⟩ : Fin 32) (⟨i.val % 128, by omega⟩ : Fin 128))
      = (FloatOps.sitofp (F := Ideal) .f32
          (Cert.Awq.code (x1 (ix2 o (⟨i.val / 2, by omega⟩ : Fin 2048))) i.val) : EReal) := by
  rw [val_main_v14_apply, val_main_v13_apply]
  have e : idx_main_v14 (ix3 o (⟨i.val / 128, by omega⟩ : Fin 32) (⟨i.val % 128, by omega⟩ : Fin 128)) = ix2 o i :=
    funext fun a => Fin.ext (by
      match a with
      | ⟨0, _⟩ => show ((o.val * 32 + i.val / 128) * 128 + i.val % 128) / 4096 = o.val; omega
      | ⟨1, _⟩ => show ((o.val * 32 + i.val / 128) * 128 + i.val % 128) % 4096 = i.val; omega)
  rw [e, codes_apply]

/-- The zeros, spread over the groups' 128 positions, read at (o, g, r), are the zero of group g of row o. -/
theorem zeros_apply (x3 : (⟨S11008x32, .f32⟩ : BufTy).Contents (Elt Ideal)) (o : Fin 11008) (g : Fin 32) (r : Fin 128) :
    val_main_v16 (F := Ideal) x3 (ix3 o g r) = x3 (ix2 o g) := by
  rw [val_main_v16_apply, val_main_v15_apply]
  exact congrArg x3 (funext fun a => Fin.ext (by match a with | ⟨0, _⟩ => rfl | ⟨1, _⟩ => rfl))

/-- The scales, spread the same way, read at (o, g, r), are the scale of group g of row o. -/
theorem scales_apply (x2 : (⟨S11008x32, .f32⟩ : BufTy).Contents (Elt Ideal)) (o : Fin 11008) (g : Fin 32) (r : Fin 128) :
    val_main_v19 (F := Ideal) x2 (ix3 o g r) = x2 (ix2 o g) := by
  rw [val_main_v19_apply, val_main_v18_apply]
  exact congrArg x2 (funext fun a => Fin.ext (by match a with | ⟨0, _⟩ => rfl | ⟨1, _⟩ => rfl))

/-- The dequantized weights the reference forms, at row o and position i, are the specified weight. -/
theorem weight_apply (x1 : (⟨S11008x2048, .i32⟩ : BufTy).Contents (Elt Ideal))
    (x2 x3 : (⟨S11008x32, .f32⟩ : BufTy).Contents (Elt Ideal)) (o : Fin 11008) (i : Fin 4096) :
    val_main_v21 (F := Ideal) x1 x2 x3 (ix2 o i) = Cert.Awq.weight x1 x2 x3 o i := by
  rw [val_main_v21_apply]
  have e : idx_main_v21 (ix2 o i) = ix3 o (⟨i.val / 128, by omega⟩ : Fin 32) (⟨i.val % 128, by omega⟩ : Fin 128) :=
    funext fun a => Fin.ext (by
      match a with
      | ⟨0, _⟩ => show (o.val * 4096 + i.val) / 4096 = o.val; omega
      | ⟨1, _⟩ => show (o.val * 4096 + i.val) / 128 % 32 = i.val / 128; omega
      | ⟨2, _⟩ => show (o.val * 4096 + i.val) % 128 = i.val % 128; omega)
  rw [e, val_main_v20_apply, val_main_v17_apply, grouped_codes_apply, zeros_apply, scales_apply]
  rfl

/-- The activations times the input scales, at (b, s, i). -/
theorem scaled_apply (x0 : (⟨S4x2048x4096, .f32⟩ : BufTy).Contents (Elt Ideal))
    (x4 : (⟨S4096, .f32⟩ : BufTy).Contents (Elt Ideal)) (b : Fin 4) (s : Fin 2048) (i : Fin 4096) :
    val_main_v2 (F := Ideal) x0 x4 (ix3 b s i) = x0 (ix3 b s i) * x4 (ix1 i) := by
  rw [val_main_v2_apply, val_main_v1_apply, val_main_v0_apply]
  have e : idx_main_v0 (idx_main_v1 (ix3 b s i)) = ix1 i :=
    funext fun a => Fin.ext (by match a with | ⟨0, _⟩ => rfl)
  rw [e]
  rfl

/-- The bias, spread over batch and row, read at (b, s, o), is the bias of output feature o. -/
theorem bias_apply (x5 : (⟨S11008, .f32⟩ : BufTy).Contents (Elt Ideal)) (b : Fin 4) (s : Fin 2048) (o : Fin 11008) :
    val_main_v24 (F := Ideal) x5 (ix3 b s o) = x5 (ix1 o) := by
  rw [val_main_v24_apply, val_main_v23_apply]
  exact congrArg x5 (funext fun a => Fin.ext (by match a with | ⟨0, _⟩ => rfl))

/-- The reference's result at (b, s, o) is the specified one: the sum over the 4096 positions of scaled activation times
    dequantized weight, plus the bias. -/
theorem ref_apply (x0 : (⟨S4x2048x4096, .f32⟩ : BufTy).Contents (Elt Ideal)) (x1 : (⟨S11008x2048, .i32⟩ : BufTy).Contents (Elt Ideal))
    (x2 x3 : (⟨S11008x32, .f32⟩ : BufTy).Contents (Elt Ideal)) (x4 : (⟨S4096, .f32⟩ : BufTy).Contents (Elt Ideal))
    (x5 : (⟨S11008, .f32⟩ : BufTy).Contents (Elt Ideal)) (b : Fin 4) (s : Fin 2048) (o : Fin 11008) :
    val_main_v25 (F := Ideal) x0 x1 x2 x3 x4 x5 (ix3 b s o) = Cert.Awq.outAt x0 x1 x2 x3 x4 x5 b s o := by
  rw [val_main_v25_apply, val_main_v22_apply, bias_apply]
  unfold Cert.Awq.outAt
  have term : ∀ k : Fin 4096,
      val_main_v2 (F := Ideal) x0 x4 (lidx_main_v22 (ix3 b s o) k) * val_main_v21 (F := Ideal) x1 x2 x3 (ridx_main_v22 (ix3 b s o) k)
        = (x0 (ix3 b s k) * x4 (ix1 k)) * Cert.Awq.weight x1 x2 x3 o k := fun k => by
    have el : lidx_main_v22 (ix3 b s o) k = ix3 b s k :=
      funext fun a => Fin.ext (by match a with | ⟨0, _⟩ => rfl | ⟨1, _⟩ => rfl | ⟨2, _⟩ => rfl)
    have er : ridx_main_v22 (ix3 b s o) k = ix2 o k :=
      funext fun a => Fin.ext (by match a with | ⟨0, _⟩ => rfl | ⟨1, _⟩ => rfl)
    rw [el, er, scaled_apply, weight_apply]
  rw [Finset.sum_congr rfl fun k _ => term k]
  rfl

theorem ref_eq (x0 : (⟨S4x2048x4096, .f32⟩ : BufTy).Contents (Elt Ideal)) (x1 : (⟨S11008x2048, .i32⟩ : BufTy).Contents (Elt Ideal))
    (x2 x3 : (⟨S11008x32, .f32⟩ : BufTy).Contents (Elt Ideal)) (x4 : (⟨S4096, .f32⟩ : BufTy).Contents (Elt Ideal))
    (x5 : (⟨S11008, .f32⟩ : BufTy).Contents (Elt Ideal)) :
    val_main_v25 (F := Ideal) x0 x1 x2 x3 x4 x5 = Cert.Awq.out x0 x1 x2 x3 x4 x5 := by
  funext j
  rw [eq_ix3 j]
  exact ref_apply x0 x1 x2 x3 x4 x5 (j 0) (j 1) (j 2)

end Cert.ReferenceIdeal.RefValue

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KernelPayload.lean ====
/-
  The kernel body's arithmetic, read one entry at a time at the ideal values.
-/
import proofs.«425637_j30339648979201_3_alg».proof.Proof.Gen.KernelIdeal.Skeleton
import proofs.«425637_j30339648979201_3_alg».proof.Proof.LibOneAxisContraction
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-! ## The matmul's operand indices

The matmul contracts axis 1 of both operands (4096 long) and has no batch axis: at result index (p, q) and contraction
position `c` the left operand is read at (p, c) and the right one at (q, c). One lemma per operand and axis. -/

/-- The matmul's left operand index, off the contracted axis: row `p` of the result index. -/
theorem lhs_matmul_0 (p : Fin 256) (q : Fin 128) (c : dot_S256x4096_S128x4096_S256x128_1_1_0_0_n_n.contr.Idx) :
    (dot_S256x4096_S128x4096_S256x128_1_1_0_0_n_n.lhsIdx (ix2 p q) c 0).val = p.val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl

/-- The matmul's left operand index, on the contracted axis: the contraction position's one coordinate. -/
theorem lhs_matmul_1 (p : Fin 256) (q : Fin 128) (c : dot_S256x4096_S128x4096_S256x128_1_1_0_0_n_n.contr.Idx) :
    (dot_S256x4096_S128x4096_S256x128_1_1_0_0_n_n.lhsIdx (ix2 p q) c 1).val = (c ⟨0, by decide⟩).val :=
  dot_S256x4096_S128x4096_S256x128_1_1_0_0_n_n.lhsIdx_val_of_single rfl (ix2 p q) c

/-- The matmul's right operand index, off the contracted axis: column `q` of the result index. -/
theorem rhs_matmul_0 (p : Fin 256) (q : Fin 128) (c : dot_S256x4096_S128x4096_S256x128_1_1_0_0_n_n.contr.Idx) :
    (dot_S256x4096_S128x4096_S256x128_1_1_0_0_n_n.rhsIdx (ix2 p q) c 0).val = q.val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl

/-- The matmul's right operand index, on the contracted axis: the contraction position's one coordinate. -/
theorem rhs_matmul_1 (p : Fin 256) (q : Fin 128) (c : dot_S256x4096_S128x4096_S256x128_1_1_0_0_n_n.contr.Idx) :
    (dot_S256x4096_S128x4096_S256x128_1_1_0_0_n_n.rhsIdx (ix2 p q) c 1).val = (c ⟨0, by decide⟩).val :=
  dot_S256x4096_S128x4096_S256x128_1_1_0_0_n_n.rhsIdx_val_of_single rfl (ix2 p q) c

/-- The matmul into the zero accumulator, plus the one-row bias block repeated down the rows. -/
theorem pay1_apply (a : FVec Ideal S256x4096 .bf16) (w : Vec Ideal S128x4096 .f32) (bb : Vec Ideal S1x128 .f32)
    (p : Fin 256) (q : Fin 128) :
    k0_pay1 (F := Ideal) a w bb (ix2 p q)
      = (∑ k' : Fin 4096, a (ix2 p k') * w (ix2 q k')) + bb (ix2 (0 : Fin 1) q) := by
  unfold k0_pay1
  rw [shapeCast_self]
  show matmul dot_S256x4096_S128x4096_S256x128_1_1_0_0_n_n none a (truncf .bf16 w bitsLt_bf16_f32)
        (constant (F := Ideal) S256x128 .f32 0x00000000#32) (ix2 p q)
      + broadcastTo S256x128 bb broadcasts_S1x128_S256x128 (ix2 p q) = _
  rw [broadcastTo_1b_ab_apply]
  refine congrArg (· + bb (ix2 (0 : Fin 1) q)) ?_
  -- the contraction: at position `c` the left operand is read at (p, c), the right one at (q, c)
  refine (Cert.Dots.matmul_zero_apply_of dot_S256x4096_S128x4096_S256x128_1_1_0_0_n_n 4096 rfl rfl none a
    (truncf .bf16 w bitsLt_bf16_f32) (ix2 p q) (fun c => ix2 p c) (fun c => ix2 q c) (fun c => ?_) (fun c => ?_)).trans ?_
  · have hk := contrEquiv1_symm_val dot_S256x4096_S128x4096_S256x128_1_1_0_0_n_n 4096 rfl rfl c
    exact funext fun ax => Fin.ext (by
      match ax with
      | ⟨0, _⟩ => exact lhs_matmul_0 _ _ _
      | ⟨1, _⟩ => exact (lhs_matmul_1 _ _ _).trans hk)
  · have hk := contrEquiv1_symm_val dot_S256x4096_S128x4096_S256x128_1_1_0_0_n_n 4096 rfl rfl c
    exact funext fun ax => Fin.ext (by
      match ax with
      | ⟨0, _⟩ => exact rhs_matmul_0 _ _ _
      | ⟨1, _⟩ => exact (rhs_matmul_1 _ _ _).trans hk)
  -- the narrowing of the weight block is the identity on extended reals
  · rfl

/-- The activation block times the one-row input-scale block repeated down the rows. -/
theorem pay6_apply (x0 : Vec Ideal S256x4096 .f32) (x4 : Vec Ideal S1x4096 .f32) (p : Fin 256) (k' : Fin 4096) :
    k0_pay6 (F := Ideal) x0 x4 (ix2 p k') = x0 (ix2 p k') * x4 (ix2 (0 : Fin 1) k') := by
  unfold k0_pay6
  -- the narrowing is the identity on extended reals and the product is entrywise
  show shapeCast S256x4096 x0 shapeCasts_S256x4096_S256x4096 (ix2 p k')
      * broadcastTo S256x4096 (shapeCast S1x4096 x4 shapeCasts_S1x4096_S1x4096) broadcasts_S1x4096_S256x4096 (ix2 p k') = _
  rw [shapeCast_self, shapeCast_self]
  exact congrArg (x0 (ix2 p k') * ·) (broadcastTo_1b_ab_apply x4 _ p k')

/-! ## The per-group blocks spread over their columns -/

/-- A [128,32] block viewed [128,32,1], repeated 64 times along the new last axis, and flattened to [128,2048]:
    entry (q, k) is the block's entry (q, k / 64). The flattening matches (q, k) with (q, k / 64, k % 64) by row-major
    position, the repetition forgets the last coordinate, and the added unit axis does not move the position. -/
theorem spread64_apply (v : Vec Ideal S128x32 .f32) (q : Fin 128) (k : Fin 2048) :
    shapeCast S128x2048
        (broadcastTo S128x32x64
          (shapeCast S128x32x1 (shapeCast S128x32x1 v shapeCasts_S128x32_S128x32x1) shapeCasts_S128x32x1_S128x32x1)
          broadcasts_S128x32x1_S128x32x64)
        shapeCasts_S128x32x64_S128x2048 (ix2 q k)
      = v (ix2 q (⟨k.val / 64, by omega⟩ : Fin 32)) := by
  refine (shapeCast_apply _ _ (ix2 q k) (ix3 q (⟨k.val / 64, by omega⟩ : Fin 32) (⟨k.val % 64, by omega⟩ : Fin 64)) ?_).trans ?_
  · rw [Shape.rowMajor_val_three, Shape.rowMajor_val_two]
    show (q.val * 32 + k.val / 64) * 64 + k.val % 64 = q.val * 2048 + k.val
    omega
  refine (broadcastTo_apply _ _ _ (ix3 q (⟨k.val / 64, by omega⟩ : Fin 32) (0 : Fin 1)) ?_).trans ?_
  · intro a
    match a with
    | ⟨0, _⟩ => rfl
    | ⟨1, _⟩ => rfl
    | ⟨2, _⟩ => rfl
  rw [shapeCast_self]
  refine shapeCast_apply _ _ _ (ix2 q (⟨k.val / 64, by omega⟩ : Fin 32)) ?_
  rw [Shape.rowMajor_val_three, Shape.rowMajor_val_two]
  show q.val * 32 + k.val / 64 = (q.val * 32 + k.val / 64) * 1 + 0
  omega

/-- The per-group scale block spread over the 64 columns of each group. -/
theorem pay2_apply (v : Vec Ideal S128x32 .f32) (q : Fin 128) (k : Fin 2048) :
    k0_pay2 (F := Ideal) v (ix2 q k) = v (ix2 q (⟨k.val / 64, by omega⟩ : Fin 32)) := by
  unfold k0_pay2
  exact spread64_apply v q k

/-- The per-group zero-point block spread over the 64 columns of each group. -/
theorem pay3_apply (v : Vec Ideal S128x32 .f32) (q : Fin 128) (k : Fin 2048) :
    k0_pay3 (F := Ideal) v (ix2 q k) = v (ix2 q (⟨k.val / 64, by omega⟩ : Fin 32)) := by
  unfold k0_pay3
  exact spread64_apply v q k

/-- The high nibble of the packed word, as a number, minus its group's zero point, times its group's scale. -/
theorem pay4_apply (x1 : Vec Ideal S128x2048 .i32) (x2 x3 : Vec Ideal S128x32 .f32) (q : Fin 128) (k : Fin 2048) :
    k0_pay4 (F := Ideal) x1 x2 x3 (ix2 q k)
      = ((FloatOps.sitofp (F := Ideal) .f32 (IntOp.andi (IntOp.shrsi .vector (x1 (ix2 q k)) 4#32) 15#32) : EReal)
          - x3 (ix2 q (⟨k.val / 64, by omega⟩ : Fin 32))) * x2 (ix2 q (⟨k.val / 64, by omega⟩ : Fin 32)) := by
  unfold k0_pay4
  rw [shapeCast_self]
  -- shift, mask, conversion, difference and product are all entrywise
  show ((FloatOps.sitofp (F := Ideal) .f32 (IntOp.andi (IntOp.shrsi .vector (x1 (ix2 q k)) 4#32) 15#32) : EReal)
      - k0_pay3 (F := Ideal) x3 (ix2 q k)) * k0_pay2 (F := Ideal) x2 (ix2 q k) = _
  rw [pay3_apply, pay2_apply]

/-- The low nibble of the packed word, as a number, minus its group's zero point, times its group's scale. -/
theorem pay5_apply (x1 : Vec Ideal S128x2048 .i32) (x2 x3 : Vec Ideal S128x32 .f32) (q : Fin 128) (k : Fin 2048) :
    k0_pay5 (F := Ideal) x1 x2 x3 (ix2 q k)
      = ((FloatOps.sitofp (F := Ideal) .f32 (IntOp.andi (x1 (ix2 q k)) 15#32) : EReal)
          - x3 (ix2 q (⟨k.val / 64, by omega⟩ : Fin 32))) * x2 (ix2 q (⟨k.val / 64, by omega⟩ : Fin 32)) := by
  unfold k0_pay5
  rw [shapeCast_self]
  -- mask, conversion, difference and product are all entrywise
  show ((FloatOps.sitofp (F := Ideal) .f32 (IntOp.andi (x1 (ix2 q k)) 15#32) : EReal)
      - k0_pay3 (F := Ideal) x3 (ix2 q k)) * k0_pay2 (F := Ideal) x2 (ix2 q k) = _
  rw [pay3_apply, pay2_apply]

end Cert.KernelIdeal.Payload

end
-- ==== Proof.KernelPiece.lean ====
/-
  What one run of the kernel body leaves in its output block, as a function of the input blocks.

  The body first fills its [128, 4096] scratch in two halves — columns 0..2047 with the dequantized high nibbles, columns
  2048..4095 with the dequantized low nibbles —, then reads the whole scratch back and multiplies. Nothing of an earlier
  run is read: every column the product reads was written in this run, so the scratch read back is a function
  (`wbuf`) of this run's packed-weight, scale and zero blocks alone, and the output block is the matmul-plus-bias
  payload of the scaled input block, that scratch, and the bias block.
-/
import proofs.«425637_j30339648979201_3_alg».proof.Proof.Gen.KernelIdeal.Frame
import Idealize.ShloMosaic.Lib.Pipeline.Value
import Idealize.ShloMosaic.Lib.ValueIdx

set_option maxRecDepth 16384

noncomputable section

namespace Cert.KernelIdeal.Piece

open Idealize.ShloMosaic Idealize.ShloMosaic.TcCoe Idealize.ShloMosaic.Tactic Idealize.ShloMosaic.ValueIdx Idealize.SL.Sem
open Cert.KernelIdeal Cert.KernelIdeal.Gen

variable {F : FTy → Type} [FloatOps F]

/-- The zero offsets, however they are spelt. -/
theorem off_zero : (![0, 0] : Fin 2 → Nat) = fun _ => 0 := by
  funext a; fin_cases a <;> rfl

/-- The scratch after both halves are stored: the later store (the right half, low nibbles) first. -/
def wbuf (x1 : Vec F S128x2048 .i32) (x2 x3 : Vec F S128x32 .f32) : Vec F S128x4096 .f32 :=
  View.canon
    [(⟨Rect.unit (s := S128x4096) ![0, 2048] S128x2048.size inb_S128x4096_S128x2048_0_2048, k0_pay5 x1 x2 x3⟩ : View.Piece (Elt F) S128x4096 .f32),
     ⟨Rect.unit (s := S128x4096) ![0, 0] S128x2048.size inb_S128x4096_S128x2048_0_0, k0_pay4 x1 x2 x3⟩]

/-- The output block after one run of the body. -/
theorem out_piece (c : Dev nD) (i : grid0.Coords) (arg2 : Memref sig .tc .vmem S256x4096 .f32) (harg2 : arg2.IsWhole) (arg3 : Memref sig .tc .vmem S128x2048 .i32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x4096 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S128x4096 .f32) (harg9 : arg9.IsWhole)
    (x0 : Vec F S256x4096 .f32) (x1 : Vec F S128x2048 .i32) (x2 : Vec F S128x32 .f32) (x3 : Vec F S128x32 .f32) (x4 : Vec F S1x4096 .f32) (x5 : Vec F S1x128 .f32) :
    out0_A_6 c i arg2 harg2 arg3 harg3 arg4 harg4 arg5 harg5 arg6 harg6 arg7 harg7 arg8 harg8 arg9 harg9 x0 x1 x2 x3 x4 x5
      = k0_pay1 (k0_pay6 x0 x4) (wbuf x1 x2 x3) x5 := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero off_zero]
  simp only [View.readAt_eq_ld, harg2.read_unread, harg3.read_unread, harg4.read_unread, harg5.read_unread, harg6.read_unread,
    harg7.read_unread, View.ld_unit_zero (S := S256x4096) off_zero, View.ld_unit_zero (S := S128x2048) off_zero,
    View.ld_unit_zero (S := S128x32) off_zero, View.ld_unit_zero (S := S1x4096) off_zero, View.ld_unit_zero (S := S1x128) off_zero,
    View.readCov_eq_canon']
  refine congrArg (fun w => k0_pay1 (k0_pay6 x0 x4) w x5) ?_
  exact View.ld_unit_zero (S := S128x4096) off_zero inb_S128x4096_S128x4096_0_0 (wbuf x1 x2 x3)

/-- A column of the left half of the scratch holds the dequantized high nibble of that packed word. -/
theorem wbuf_left (x1 : Vec F S128x2048 .i32) (x2 x3 : Vec F S128x32 .f32) (q : Fin 128) (k : Fin 2048) :
    wbuf x1 x2 x3 (ix2 q (⟨k.val, by omega⟩ : Fin 4096)) = k0_pay4 x1 x2 x3 (ix2 q k) := by
  unfold wbuf
  rw [View.canon_cons_of_not_mem _ _ (by
    rw [Rect.mem_set_unit]
    intro h
    have h1 : (2048 : Nat) ≤ k.val := (h 1).1
    omega)]
  have e : (ix2 q (⟨k.val, by omega⟩ : Fin 4096) : S128x4096.Idx)
      = (Rect.unit (s := S128x4096) ![0, 0] S128x2048.size inb_S128x4096_S128x2048_0_0).emb (ix2 q k) :=
    funext fun a => Fin.ext (by
      match a with
      | ⟨0, _⟩ => show q.val = 0 + 1 * q.val; omega
      | ⟨1, _⟩ => show k.val = 0 + 1 * k.val; omega)
  rw [e, View.canon_cons_emb]

/-- A column of the right half holds the dequantized low nibble of the packed word 2048 columns to its left. -/
theorem wbuf_right (x1 : Vec F S128x2048 .i32) (x2 x3 : Vec F S128x32 .f32) (q : Fin 128) (k : Fin 2048) :
    wbuf x1 x2 x3 (ix2 q (⟨2048 + k.val, by omega⟩ : Fin 4096)) = k0_pay5 x1 x2 x3 (ix2 q k) := by
  unfold wbuf
  have e : (ix2 q (⟨2048 + k.val, by omega⟩ : Fin 4096) : S128x4096.Idx)
      = (Rect.unit (s := S128x4096) ![0, 2048] S128x2048.size inb_S128x4096_S128x2048_0_2048).emb (ix2 q k) :=
    funext fun a => Fin.ext (by
      match a with
      | ⟨0, _⟩ => show q.val = 0 + 1 * q.val; omega
      | ⟨1, _⟩ => show 2048 + k.val = 2048 + 1 * k.val; omega)
  rw [e, View.canon_cons_emb]

end Cert.KernelIdeal.Piece

end
-- ==== Proof.KernelBlock.lean ====
/-
  One entry of the output block, from the six input blocks.

  Suppose the input blocks are what they are at a grid point: the x block's row `p` is row `(bb p, ss p)` of `x` with
  its 4096 positions listed even first, then odd (`Cert.Awq.orig`); the packed-weight, scale and zero blocks' row `q`
  is row `oo q` of their arrays; the input-scale row is listed like x; the bias row's entry `q` is `bias[oo q]`.
  Then entry `(p, q)` of the output block is the specified result at `(bb p, ss p, oo q)`:
  the matmul is the sum over the listed positions `k'` of `(x · inscale)[orig k'] · w[k']`, the scratch column `k'`
  holds the dequantized high nibble of word `k'` for `k' < 2048` and the low nibble of word `k' − 2048` otherwise,
  which is the weight of position `orig k'` (an even position `2k'`, resp. the odd position `2(k' − 2048) + 1`: same
  word, same group), and a sum over all positions does not depend on their order.
-/
import proofs.«425637_j30339648979201_3_alg».proof.Proof.KernelPayload
import proofs.«425637_j30339648979201_3_alg».proof.Proof.KernelPiece
import proofs.«425637_j30339648979201_3_alg».proof.Proof.Spec

noncomputable section

namespace Cert.KernelIdeal.Block

open Idealize.ShloMosaic Idealize.ShloMosaic.ValueIdx Cert.KernelIdeal Cert.KernelIdeal.Gen Cert.Awq
open scoped BigOperators

/-- The weight of a position, with its packed word's column and its group named. -/
theorem weight_eq (Q : (⟨2, ![11008, 2048]⟩ : Shape).Idx → BitVec 32) (SC Z : (⟨2, ![11008, 32]⟩ : Shape).Idx → EReal)
    (o : Fin 11008) (i : Fin 4096) (a : Fin 2048) (g : Fin 32) (ha : a.val = i.val / 2) (hg : g.val = i.val / 128) :
    weight Q SC Z o i
      = ((FloatOps.sitofp (F := Ideal) .f32 (code (Q (ix2 o a)) i.val) : EReal) - Z (ix2 o g)) * SC (ix2 o g) := by
  obtain ⟨a, ha'⟩ := a
  obtain ⟨g, hg'⟩ := g
  dsimp only at ha hg
  subst ha; subst hg; rfl

section
variable (Q : (⟨2, ![11008, 2048]⟩ : Shape).Idx → BitVec 32) (SC Z : (⟨2, ![11008, 32]⟩ : Shape).Idx → EReal)
  (x1 : Vec Ideal S128x2048 .i32) (x2 x3 : Vec Ideal S128x32 .f32) (oo : Fin 128 → Fin 11008)
  (h1 : ∀ (q : Fin 128) (k : Fin 2048), x1 (ix2 q k) = Q (ix2 (oo q) k))
  (h2 : ∀ (q : Fin 128) (g : Fin 32), x2 (ix2 q g) = SC (ix2 (oo q) g))
  (h3 : ∀ (q : Fin 128) (g : Fin 32), x3 (ix2 q g) = Z (ix2 (oo q) g))
include h1 h2 h3

/-- A column of the left half of the scratch is the weight of the even position it stands for. -/
theorem wbuf_left_weight (q : Fin 128) (k' : Fin 4096) (h : k'.val < 2048) :
    Piece.wbuf (F := Ideal) x1 x2 x3 (ix2 q k') = weight Q SC Z (oo q) (orig k') := by
  have hk : (ix2 q k' : S128x4096.Idx) = ix2 q (⟨(⟨k'.val, h⟩ : Fin 2048).val, by omega⟩ : Fin 4096) := rfl
  rw [hk, Piece.wbuf_left, Payload.pay4_apply, h1, h2, h3,
    weight_eq Q SC Z (oo q) (orig k') ⟨k'.val, h⟩ ⟨k'.val / 64, by omega⟩ (by simp only [orig]; omega) (by simp only [orig]; omega)]
  unfold code
  rw [if_pos (by simp only [orig]; omega)]

/-- A column of the right half is the weight of the odd position it stands for. -/
theorem wbuf_right_weight (q : Fin 128) (k' : Fin 4096) (h : 2048 ≤ k'.val) :
    Piece.wbuf (F := Ideal) x1 x2 x3 (ix2 q k') = weight Q SC Z (oo q) (orig k') := by
  have hk : (ix2 q k' : S128x4096.Idx) = ix2 q (⟨2048 + (⟨k'.val - 2048, by omega⟩ : Fin 2048).val, by omega⟩ : Fin 4096) :=
    congrArg (ix2 q) (Fin.ext (by show k'.val = 2048 + (k'.val - 2048); omega))
  rw [hk, Piece.wbuf_right, Payload.pay5_apply, h1, h2, h3,
    weight_eq Q SC Z (oo q) (orig k') ⟨k'.val - 2048, by omega⟩ ⟨(k'.val - 2048) / 64, by omega⟩
      (by simp only [orig]; omega) (by simp only [orig]; omega)]
  unfold code
  rw [if_neg (by simp only [orig]; omega)]

/-- Every column of the scratch is the weight of the position it stands for. -/
theorem wbuf_weight (q : Fin 128) (k' : Fin 4096) :
    Piece.wbuf (F := Ideal) x1 x2 x3 (ix2 q k') = weight Q SC Z (oo q) (orig k') := by
  by_cases h : k'.val < 2048
  · exact wbuf_left_weight Q SC Z x1 x2 x3 oo h1 h2 h3 q k' h
  · exact wbuf_right_weight Q SC Z x1 x2 x3 oo h1 h2 h3 q k' (by omega)

end

/-- Entry `(p, q)` of the output block is the specified result at the row and output feature the blocks stand for. -/
theorem block_value (X : (⟨3, ![4, 2048, 4096]⟩ : Shape).Idx → EReal) (Q : (⟨2, ![11008, 2048]⟩ : Shape).Idx → BitVec 32)
    (SC Z : (⟨2, ![11008, 32]⟩ : Shape).Idx → EReal) (IS : (⟨1, ![4096]⟩ : Shape).Idx → EReal)
    (B : (⟨1, ![11008]⟩ : Shape).Idx → EReal)
    (x0 : Vec Ideal S256x4096 .f32) (x1 : Vec Ideal S128x2048 .i32) (x2 x3 : Vec Ideal S128x32 .f32)
    (x4 : Vec Ideal S1x4096 .f32) (x5 : Vec Ideal S1x128 .f32)
    (bb : Fin 256 → Fin 4) (ss : Fin 256 → Fin 2048) (oo : Fin 128 → Fin 11008)
    (h0 : ∀ (p : Fin 256) (k' : Fin 4096), x0 (ix2 p k') = X (ix3 (bb p) (ss p) (orig k')))
    (h1 : ∀ (q : Fin 128) (k : Fin 2048), x1 (ix2 q k) = Q (ix2 (oo q) k))
    (h2 : ∀ (q : Fin 128) (g : Fin 32), x2 (ix2 q g) = SC (ix2 (oo q) g))
    (h3 : ∀ (q : Fin 128) (g : Fin 32), x3 (ix2 q g) = Z (ix2 (oo q) g))
    (h4 : ∀ k' : Fin 4096, x4 (ix2 (0 : Fin 1) k') = IS (ix1 (orig k')))
    (h5 : ∀ q : Fin 128, x5 (ix2 (0 : Fin 1) q) = B (ix1 (oo q)))
    (p : Fin 256) (q : Fin 128) :
    k0_pay1 (F := Ideal) (k0_pay6 (F := Ideal) x0 x4) (Piece.wbuf (F := Ideal) x1 x2 x3) x5 (ix2 p q)
      = outAt X Q SC Z IS B (bb p) (ss p) (oo q) := by
  rw [Payload.pay1_apply, h5, ← outAt_listed X Q SC Z IS B (bb p) (ss p) (oo q)]
  refine congrArg (· + B (ix1 (oo q))) (Finset.sum_congr rfl fun k' _ => ?_)
  rw [Payload.pay6_apply, h0, h4, wbuf_weight Q SC Z x1 x2 x3 oo h1 h2 h3 q k']

end Cert.KernelIdeal.Block

end
-- ==== Proof.HostPrefix.lean ====
/-
  What the region finds in the three arrays the host lines before it wrote, one entry at a time.
-/
import proofs.«425637_j30339648979201_3_alg».proof.Proof.Gen.KernelIdeal.Frame.Runs
import proofs.«425637_j30339648979201_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrefix

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

theorem V_main_v3_apply (c : Dev nD) (r : Fin 8192) (k' : Fin 4096) :
    (V m c main_v3 : S8192x4096.Idx → EReal) (ix2 r k')
      = (m ((c : Thread nD τ).loc main_arg0) : S4x2048x4096.Idx → EReal)
          (ix3 (⟨r.val / 2048, by omega⟩ : Fin 4) (⟨r.val % 2048, by omega⟩ : Fin 2048) (Cert.Awq.orig k')) := by
  have e : (V m c main_v3 : S8192x4096.Idx → EReal)
      = shapeCast S8192x4096 (transpose S8192x2x2048 [0, 2, 1]
          (shapeCast S8192x2048x2
            (shapeCast S8192x4096 (m ((c : Thread nD τ).loc main_arg0) : S4x2048x4096.Idx → EReal)
              shapeCasts_S4x2048x4096_S8192x4096)
            shapeCasts_S8192x4096_S8192x2048x2)
          transposes_S8192x2048x2_S8192x2x2048_0_2_1) shapeCasts_S8192x2x2048_S8192x4096 := by
    show StableHlo.after hostOps0 (fun b => m (c, b)) (Proc.devRef .tc main_v3) = _
    after_results
    rfl
  rw [e]
  have hr := r.isLt
  have hk := k'.isLt
  -- row r of 4096 read at k' is the 2 × 2048 slab of row r at (k' / 2048, k' % 2048): equal row-major positions
  rw [shapeCast_apply _ shapeCasts_S8192x2x2048_S8192x4096 (ix2 r k')
    (ix3 r (⟨k'.val / 2048, by omega⟩ : Fin 2) (⟨k'.val % 2048, by omega⟩ : Fin 2048))
    (by rewrite [Shape.rowMajor_val_three, Shape.rowMajor_val_two]
        show (r.val * 2 + k'.val / 2048) * 2048 + k'.val % 2048 = r.val * 4096 + k'.val
        omega)]
  -- the transpose swaps the last two coordinates
  rw [transpose_ix3_021_apply]
  -- the 2048 × 2 slab of row r at (i, p) is row r at 2 i + p, which is `orig k'`
  rw [shapeCast_apply _ shapeCasts_S8192x4096_S8192x2048x2 _ (ix2 r (Cert.Awq.orig k'))
    (by rewrite [Shape.rowMajor_val_two, Shape.rowMajor_val_three]
        show r.val * 4096 + (Cert.Awq.orig k').val = (r.val * 2048 + k'.val % 2048) * 2 + k'.val / 2048
        simp only [Cert.Awq.orig]
        omega)]
  -- row r = b · 2048 + s of the flattened array is entry (b, s) of the batch
  rw [shapeCast_apply _ shapeCasts_S4x2048x4096_S8192x4096 _
    (ix3 (⟨r.val / 2048, by omega⟩ : Fin 4) (⟨r.val % 2048, by omega⟩ : Fin 2048) (Cert.Awq.orig k'))
    (by rewrite [Shape.rowMajor_val_three, Shape.rowMajor_val_two]
        show (r.val / 2048 * 2048 + r.val % 2048) * 4096 + (Cert.Awq.orig k').val = r.val * 4096 + (Cert.Awq.orig k').val
        omega)]

theorem V_main_v6_apply (c : Dev nD) (k' : Fin 4096) :
    (V m c main_v6 : S1x4096.Idx → EReal) (ix2 (0 : Fin 1) k')
      = (m ((c : Thread nD τ).loc main_arg4) : S4096.Idx → EReal) (ix1 (Cert.Awq.orig k')) := by
  have e : (V m c main_v6 : S1x4096.Idx → EReal)
      = shapeCast S1x4096 (transpose S2x2048 [1, 0]
          (shapeCast S2048x2 (m ((c : Thread nD τ).loc main_arg4) : S4096.Idx → EReal) shapeCasts_S4096_S2048x2)
          transposes_S2048x2_S2x2048_1_0) shapeCasts_S2x2048_S1x4096 := by
    show StableHlo.after hostOps0 (fun b => m (c, b)) (Proc.devRef .tc main_v6) = _
    after_results
    rfl
  rw [e]
  have hk := k'.isLt
  -- the one row of 4096 read at k' is the 2 × 2048 array at (k' / 2048, k' % 2048): equal row-major positions
  rw [shapeCast_apply _ shapeCasts_S2x2048_S1x4096 (ix2 (0 : Fin 1) k')
    (ix2 (⟨k'.val / 2048, by omega⟩ : Fin 2) (⟨k'.val % 2048, by omega⟩ : Fin 2048))
    (by rewrite [Shape.rowMajor_val_two, Shape.rowMajor_val_two]
        show k'.val / 2048 * 2048 + k'.val % 2048 = 0 * 4096 + k'.val
        omega)]
  -- the transpose swaps the two coordinates
  rw [transpose_ix2_apply]
  -- the 2048 × 2 array at (i, p) is the vector at 2 i + p, which is `orig k'`
  rw [shapeCast_apply _ shapeCasts_S4096_S2048x2 _ (ix1 (Cert.Awq.orig k'))
    (by rewrite [Shape.rowMajor_val_one, Shape.rowMajor_val_two]
        show (Cert.Awq.orig k').val = k'.val % 2048 * 2 + k'.val / 2048
        simp only [Cert.Awq.orig]
        omega)]

theorem V_main_v7_apply (c : Dev nD) (n : Fin 11008) :
    (V m c main_v7 : S1x11008.Idx → EReal) (ix2 (0 : Fin 1) n)
      = (m ((c : Thread nD τ).loc main_arg5) : S11008.Idx → EReal) (ix1 n) := by
  have e : (V m c main_v7 : S1x11008.Idx → EReal)
      = shapeCast S1x11008 (m ((c : Thread nD τ).loc main_arg5) : S11008.Idx → EReal) shapeCasts_S11008_S1x11008 := by
    show StableHlo.after hostOps0 (fun b => m (c, b)) (Proc.devRef .tc main_v7) = _
    after_results
    rfl
  rw [e]
  -- a vector laid out as one row reads at (0, n) the vector at n
  exact shapeCast_a_1a_apply _ _ (0 : Fin 1) n

end Cert.KernelIdeal.HostPrefix

end
-- ==== Proof.KernelRun.lean ====
/-
  From the blocks to the product array.

  The grid has 32 × 86 points, run row-major: point `t` is block row `t / 86` (256 rows of the [8192, 11008] product)
  and block column `t mod 86` (128 output features). At point `t` the x window is rows `256·(t/86) …` of the permuted x,
  the packed-weight, scale and zero windows are rows `128·(t mod 86) …` of their arrays, the input-scale window is the
  whole permuted row, the bias window is columns `128·(t mod 86) …` of the bias row. So what point `t` writes back is
  block `t` of ONE function of the argument arrays: entry `(r, n)` is the specified result at batch `r / 2048`, row
  `r mod 2048`, feature `n`. The blocks tile the array, hence the array ends as that function.
-/
import proofs.«425637_j30339648979201_3_alg».proof.Proof.Gen.KernelIdeal.Frame
import proofs.«425637_j30339648979201_3_alg».proof.Proof.KernelBlock
import proofs.«425637_j30339648979201_3_alg».proof.Proof.HostPrefix
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.Awq

variable (m : (ℓ : Loc nD τ sig) → Buf (Elt Ideal) ℓ) (ρ : Dev nD → PrngReg)

/-! ## The index maps over the grid -/

/-- Each window's block index at point `t`, in closed form: decided over the 2752 points. -/
theorem idx_facts : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = t.val % 86 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val % 86
    ∧ win0_6.index t (0 : Fin 2) = t.val / 86 ∧ win0_6.index t (1 : Fin 2) = t.val % 86 :=
  (by decide +kernel : ∀ t : Fin grid0.N, _)

theorem t_lt (t : Fin cfg0.N) : t.val < 2752 := by
  have h := t.isLt
  have e : cfg0.N = 2752 := N_0
  omega

/-! ## The input blocks at a point, named at their literal types -/

abbrev xblk (c : Dev nD) (t : Fin cfg0.N) : Vec Ideal S256x4096 .f32 := iblk m c 0 t
abbrev qblk (c : Dev nD) (t : Fin cfg0.N) : Vec Ideal S128x2048 .i32 := iblk m c 1 t
abbrev sblk (c : Dev nD) (t : Fin cfg0.N) : Vec Ideal S128x32 .f32 := iblk m c 2 t
abbrev zblk (c : Dev nD) (t : Fin cfg0.N) : Vec Ideal S128x32 .f32 := iblk m c 3 t
abbrev iblk4 (c : Dev nD) (t : Fin cfg0.N) : Vec Ideal S1x4096 .f32 := iblk m c 4 t
abbrev bblk (c : Dev nD) (t : Fin cfg0.N) : Vec Ideal S1x128 .f32 := iblk m c 5 t

/-- The x block's row `p` at point `t` is row `256·(t/86) + p` of the permuted x. -/
theorem xblk_apply (c : Dev nD) (t : Fin cfg0.N) (p : Fin 256) (k' : Fin 4096) :
    xblk m c t (ix2 p k')
      = (m ((c : Thread nD τ).loc main_arg0) : S4x2048x4096.Idx → EReal)
          (ix3 (⟨(t.val / 86 * 256 + p.val) / 2048, by have := t_lt t; omega⟩ : Fin 4)
            (⟨(t.val / 86 * 256 + p.val) % 2048, by omega⟩ : Fin 2048) (orig k')) := by
  obtain ⟨e0, e1, -⟩ := idx_facts t
  have hN := t_lt t
  show V m c main_v3 (((cfg0.win 0).blk t).view.emb (ix2 p k')) = _
  have he : (((cfg0.win 0).blk t).view.emb (ix2 p k') : S8192x4096.Idx)
      = ix2 (⟨t.val / 86 * 256 + p.val, by omega⟩ : Fin 8192) k' := by
    funext a; apply Fin.ext
    match a with
    | ⟨0, _⟩ => show win0_0.index t (0 : Fin 2) * 256 + 1 * p.val = t.val / 86 * 256 + p.val; omega
    | ⟨1, _⟩ => show win0_0.index t (1 : Fin 2) * 4096 + 1 * k'.val = k'.val; omega
  rw [he]
  exact HostPrefix.V_main_v3_apply m c _ k'

/-- The packed-weight block's row `q` at point `t` is row `128·(t mod 86) + q` of the packed weights. -/
theorem qblk_apply (c : Dev nD) (t : Fin cfg0.N) (q : Fin 128) (k : Fin 2048) :
    qblk m c t (ix2 q k)
      = (m ((c : Thread nD τ).loc main_arg1) : S11008x2048.Idx → BitVec 32)
          (ix2 (⟨t.val % 86 * 128 + q.val, by omega⟩ : Fin 11008) k) := by
  obtain ⟨-, -, e0, e1, -⟩ := idx_facts t
  show V m c main_arg1 (((cfg0.win 1).blk t).view.emb (ix2 q k)) = _
  have he : (((cfg0.win 1).blk t).view.emb (ix2 q k) : S11008x2048.Idx)
      = ix2 (⟨t.val % 86 * 128 + q.val, by omega⟩ : Fin 11008) k := by
    funext a; apply Fin.ext
    match a with
    | ⟨0, _⟩ => show win0_1.index t (0 : Fin 2) * 128 + 1 * q.val = t.val % 86 * 128 + q.val; omega
    | ⟨1, _⟩ => show win0_1.index t (1 : Fin 2) * 2048 + 1 * k.val = k.val; omega
  rw [he, V_main_arg1]

/-- The scale block's row `q` at point `t` is row `128·(t mod 86) + q` of the scales. -/
theorem sblk_apply (c : Dev nD) (t : Fin cfg0.N) (q : Fin 128) (g : Fin 32) :
    sblk m c t (ix2 q g)
      = (m ((c : Thread nD τ).loc main_arg2) : S11008x32.Idx → EReal)
          (ix2 (⟨t.val % 86 * 128 + q.val, by omega⟩ : Fin 11008) g) := by
  obtain ⟨-, -, -, -, e0, e1, -⟩ := idx_facts t
  show V m c main_arg2 (((cfg0.win 2).blk t).view.emb (ix2 q g)) = _
  have he : (((cfg0.win 2).blk t).view.emb (ix2 q g) : S11008x32.Idx)
      = ix2 (⟨t.val % 86 * 128 + q.val, by omega⟩ : Fin 11008) g := by
    funext a; apply Fin.ext
    match a with
    | ⟨0, _⟩ => show win0_2.index t (0 : Fin 2) * 128 + 1 * q.val = t.val % 86 * 128 + q.val; omega
    | ⟨1, _⟩ => show win0_2.index t (1 : Fin 2) * 32 + 1 * g.val = g.val; omega
  rw [he, V_main_arg2]

/-- The zero block's row `q` at point `t` is row `128·(t mod 86) + q` of the zeros. -/
theorem zblk_apply (c : Dev nD) (t : Fin cfg0.N) (q : Fin 128) (g : Fin 32) :
    zblk m c t (ix2 q g)
      = (m ((c : Thread nD τ).loc main_arg3) : S11008x32.Idx → EReal)
          (ix2 (⟨t.val % 86 * 128 + q.val, by omega⟩ : Fin 11008) g) := by
  obtain ⟨-, -, -, -, -, -, e0, e1, -⟩ := idx_facts t
  show V m c main_arg3 (((cfg0.win 3).blk t).view.emb (ix2 q g)) = _
  have he : (((cfg0.win 3).blk t).view.emb (ix2 q g) : S11008x32.Idx)
      = ix2 (⟨t.val % 86 * 128 + q.val, by omega⟩ : Fin 11008) g := by
    funext a; apply Fin.ext
    match a with
    | ⟨0, _⟩ => show win0_3.index t (0 : Fin 2) * 128 + 1 * q.val = t.val % 86 * 128 + q.val; omega
    | ⟨1, _⟩ => show win0_3.index t (1 : Fin 2) * 32 + 1 * g.val = g.val; omega
  rw [he, V_main_arg3]

/-- The input-scale block at every point is the whole permuted row. -/
theorem iblk4_apply (c : Dev nD) (t : Fin cfg0.N) (k' : Fin 4096) :
    iblk4 m c t (ix2 (0 : Fin 1) k') = (m ((c : Thread nD τ).loc main_arg4) : S4096.Idx → EReal) (ix1 (orig k')) := by
  obtain ⟨-, -, -, -, -, -, -, -, e0, e1, -⟩ := idx_facts t
  show V m c main_v6 (((cfg0.win 4).blk t).view.emb (ix2 (0 : Fin 1) k')) = _
  have he : (((cfg0.win 4).blk t).view.emb (ix2 (0 : Fin 1) k') : S1x4096.Idx) = ix2 (0 : Fin 1) k' := by
    funext a; apply Fin.ext
    match a with
    | ⟨0, _⟩ => show win0_4.index t (0 : Fin 2) * 1 + 1 * 0 = 0; omega
    | ⟨1, _⟩ => show win0_4.index t (1 : Fin 2) * 4096 + 1 * k'.val = k'.val; omega
  rw [he]
  exact HostPrefix.V_main_v6_apply m c k'

/-- The bias block's entry `q` at point `t` is the bias of feature `128·(t mod 86) + q`. -/
theorem bblk_apply (c : Dev nD) (t : Fin cfg0.N) (q : Fin 128) :
    bblk m c t (ix2 (0 : Fin 1) q)
      = (m ((c : Thread nD τ).loc main_arg5) : S11008.Idx → EReal) (ix1 (⟨t.val % 86 * 128 + q.val, by omega⟩ : Fin 11008)) := by
  obtain ⟨-, -, -, -, -, -, -, -, -, -, e0, e1, -⟩ := idx_facts t
  show V m c main_v7 (((cfg0.win 5).blk t).view.emb (ix2 (0 : Fin 1) q)) = _
  have he : (((cfg0.win 5).blk t).view.emb (ix2 (0 : Fin 1) q) : S1x11008.Idx)
      = ix2 (0 : Fin 1) (⟨t.val % 86 * 128 + q.val, by omega⟩ : Fin 11008) := by
    funext a; apply Fin.ext
    match a with
    | ⟨0, _⟩ => show win0_5.index t (0 : Fin 2) * 1 + 1 * 0 = 0; omega
    | ⟨1, _⟩ => show win0_5.index t (1 : Fin 2) * 128 + 1 * q.val = t.val % 86 * 128 + q.val; omega
  rw [he]
  exact HostPrefix.V_main_v7_apply m c _

/-! ## The result array -/

/-- The [8192, 11008] product-plus-bias array: entry `(r, n)` is the specified result at batch `r / 2048`, row
    `r mod 2048`, feature `n`. -/
def prod2 (c : Dev nD) : S8192x11008.Idx → EReal := fun j =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (⟨(j 0).val / 2048, by have := idx2_lt0 j; omega⟩ : Fin 4) (⟨(j 0).val % 2048, by omega⟩ : Fin 2048) (j 1)

/-- WHAT POINT `t` WRITES BACK is block `t` of that array. -/
theorem flushed_eq (c : Dev nD) (t : Fin cfg0.N) :
    (dats m 0 c).flushed 6 t = ((cfg0.win 6).blk t).view.read (Elt Ideal) (prod2 m c) := by
  show (cfg0.win 6).cut (grid0.coords t) ((dats m 0 c).after 6 t) = _
  rw [after0_6]
  unfold outsAt0
  rw [Piece.out_piece]
  obtain ⟨-, -, -, -, -, -, -, -, -, -, -, -, e0, e1⟩ := idx_facts t
  have hN := t_lt t
  funext y
  obtain ⟨p, q, rfl⟩ : ∃ (p : Fin 256) (q : Fin 128), y = ix2 p q := ⟨y 0, y 1, eq_ix2 y⟩
  show k0_pay1 (F := Ideal) (k0_pay6 (F := Ideal) (xblk m c t) (iblk4 m c t)) (Piece.wbuf (F := Ideal) (qblk m c t) (sblk m c t) (zblk m c t)) (bblk m c t) (ix2 p q)
    = prod2 m c (((cfg0.win 6).blk t).view.emb (ix2 p q))
  have he : (((cfg0.win 6).blk t).view.emb (ix2 p q) : S8192x11008.Idx)
      = ix2 (⟨t.val / 86 * 256 + p.val, by omega⟩ : Fin 8192) (⟨t.val % 86 * 128 + q.val, by omega⟩ : Fin 11008) := by
    funext a; apply Fin.ext
    match a with
    | ⟨0, _⟩ => show win0_6.index t (0 : Fin 2) * 256 + 1 * p.val = t.val / 86 * 256 + p.val; omega
    | ⟨1, _⟩ => show win0_6.index t (1 : Fin 2) * 128 + 1 * q.val = t.val % 86 * 128 + q.val; omega
  rw [he]
  exact Block.block_value _ _ _ _ _ _ (xblk m c t) (qblk m c t) (sblk m c t) (zblk m c t) (iblk4 m c t) (bblk m c t)
    (fun p => (⟨(t.val / 86 * 256 + p.val) / 2048, by omega⟩ : Fin 4))
    (fun p => (⟨(t.val / 86 * 256 + p.val) % 2048, by omega⟩ : Fin 2048))
    (fun q => (⟨t.val % 86 * 128 + q.val, by omega⟩ : Fin 11008))
    (xblk_apply m c t) (qblk_apply m c t) (sblk_apply m c t) (zblk_apply m c t) (iblk4_apply m c t) (bblk_apply m c t) p q

/-- An index of the array is in point `t`'s block iff each coordinate is in the block's range on its axis. -/
theorem mem_blk (t : Fin cfg0.N) (i : S8192x11008.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v8).slice (win0_6.rect t)).set ↔ _
  rw [View.set_slice_whole, Rect.mem_set_unit]
  exact Iff.rfl

/-- The blocks tile the array: entry `(r, n)` is in the block of point `86·(r / 256) + n / 128`. -/
theorem cover (i : S8192x11008.Idx) :
    ∃ t : Fin cfg0.N, (cfg0.win 6).flush t = true ∧ i ∈ ((cfg0.win 6).blk t).view.set := by
  have hi0 : (i 0).val < 8192 := idx2_lt0 i
  have hi1 : (i 1).val < 11008 := idx2_lt1 i
  have hN : cfg0.N = 2752 := N_0
  let t : Fin cfg0.N := ⟨(i 0).val / 256 * 86 + (i 1).val / 128, by omega⟩
  have ht : t.val = (i 0).val / 256 * 86 + (i 1).val / 128 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 128 ≤ (i 1).val ∧ (i 1).val < win0_6.index t (1 : Fin 2) * 128 + 128; omega

/-- THE ARRAY after the run. -/
theorem final (c : Dev nD) : (dats m 0 c).arrAt 6 cfg0.N = prod2 m c :=
  (dats m 0 c).arrAt_eq_of_cover 6 (prod2 m c) (fun t _ => flushed_eq m c t) (cover)

end Cert.KernelIdeal.RunValue

end
-- ==== Proof.KernelResult.lean ====
/-
  The kernel program's run, read as a value.

  After the region the product array [8192, 11008] is viewed as [4, 2048, 11008] by the one host line that follows:
  entry `(b, s, o)` of the view is entry `(2048·b + s, o)` of the array, and `(2048·b + s) / 2048 = b`,
  `(2048·b + s) mod 2048 = s`, so the program's result is the specified array; its six arguments end as launched.
-/
import proofs.«425637_j30339648979201_3_alg».proof.Proof.KernelRun

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.Awq

variable (m : (ℓ : Loc nD τ sig) → Buf (Elt Ideal) ℓ) (ρ : Dev nD → PrngReg)

/-- Row `2048·b + s` of the product array is batch `b`, row `s`. -/
theorem prod2_row (c : Dev nD) (b : Fin 4) (s : Fin 2048) (o : Fin 11008) :
    prod2 m c (ix2 (⟨b.val * 2048 + s.val, by omega⟩ : Fin 8192) o)
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s o := by
  unfold prod2
  congr 3
  · show (b.val * 2048 + s.val) / 2048 = b.val
    omega
  · show (b.val * 2048 + s.val) % 2048 = s.val
    omega

/-- The program's result: the product array viewed as [4, 2048, 11008] is the specified array. -/
theorem tail_eq (c : Dev nD) :
    (Pipeline.afterTail₀ cfgs (dats m) 0 (V0 m) [hostOps1] c main_v9 : S4x2048x11008.Idx → EReal)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v9) = _
  after_results
  have hw : (Pipeline.withArrays (cfgs 0).spec c (V0 m c) (fun w => (dats m 0 c).arrAt w (cfgs 0).N) (Proc.devRef .tc main_v8)
      : S8192x11008.Idx → EReal) = prod2 m c :=
    (Pipeline.withArrays_arr spec0 launch0.win.arr_inj c _ _ 6).trans (final m c)
  funext j
  obtain ⟨b, s, o, rfl⟩ : ∃ (b : Fin 4) (s : Fin 2048) (o : Fin 11008), j = ix3 b s o := ⟨j 0, j 1, j 2, eq_ix3 j⟩
  show shapeCast S4x2048x11008 (Pipeline.withArrays (cfgs 0).spec c (V0 m c) (fun w => (dats m 0 c).arrAt w (cfgs 0).N) (Proc.devRef .tc main_v8))
      shapeCasts_S8192x11008_S4x2048x11008 (ix3 b s o) = _
  rw [hw]
  refine (shapeCast_apply (prod2 m c) shapeCasts_S8192x11008_S4x2048x11008 (ix3 b s o)
    (ix2 (⟨b.val * 2048 + s.val, by omega⟩ : Fin 8192) o) (by
      rewrite [Shape.rowMajor_val_two, Shape.rowMajor_val_three]
      show (b.val * 2048 + s.val) * 11008 + o.val = (b.val * 2048 + s.val) * 11008 + o.val
      rfl)).trans ?_
  exact prod2_row m c b s o

/-- THE RUN: every weakly fair execution of the program terminates with the result array at the specified function of
    the argument arrays, and the arguments as launched. -/
theorem run : θ_run defs (onTc (τ := τ) (main (F := Ideal))) ⟨m, fun _ => 0, ρ⟩ fun r => ∀ c : Dev nD,
      r.2.mem ((c : Thread nD τ).loc main_v9)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.lean ====
/-
  The certificate: an int4 group-dequantized linear layer, fused (the kernel) against its plain reference.

  Both programs compute, at batch `b`, row `s`, output feature `o`,
      Σ_i (x[b, s, i] · inscale[i]) · ((code[o, i] − zero[o, i / 128]) · scale[o, i / 128]) + bias[o],
  the sum over the 4096 input positions, where the 4-bit code of position `i` is the high nibble (even `i`) or the low
  nibble (odd `i`) of packed word `i / 2` of row `o` (Proof/Spec.lean). The reference adds the terms in the order of the
  positions. The kernel permutes the contracted axis of both operands the same way — all even positions, then all odd
  ones — so that each nibble plane is one contiguous half, multiplies blockwise on a 32 × 86 grid, and views the
  [8192, 11008] product as [4, 2048, 11008]. Its terms are the reference's terms listed in another order, and a finite sum
  on the extended reals does not depend on the order of its terms (commutativity and associativity of addition only: no
  finiteness of the inputs is used). A change of float format is the identity at the ideal values, the matmul into a zero
  accumulator and the host's contraction are both the plain sum, and an arithmetic shift of a 32-bit word is the same word
  on the vector unit and on the host.

  The modules: Spec (the function and the re-ordering law); RefValue (the reference's result is the function);
  KernelPayload, KernelPiece, KernelBlock (the kernel body: one entry of the output block from the input blocks);
  HostPrefix (the permuted arrays the region finds); KernelRun, KernelResult (from the blocks to the result array and
  the program's run). The three frames are the generated ones (the reference's is its run with the result dropped); the
  idealization rewrote nothing, so `preserves` is trivial.
-/
import proofs.«425637_j30339648979201_3_alg».proof.Defs
import proofs.«425637_j30339648979201_3_alg».proof.Proof.Gen.Kernel
import proofs.«425637_j30339648979201_3_alg».proof.Proof.Gen.Kernel.Skeleton
import proofs.«425637_j30339648979201_3_alg».proof.Proof.Gen.Kernel.Launch
import proofs.«425637_j30339648979201_3_alg».proof.Proof.Gen.Kernel.Points
import proofs.«425637_j30339648979201_3_alg».proof.Proof.Gen.Kernel.Frame
import proofs.«425637_j30339648979201_3_alg».proof.Proof.Gen.KernelIdeal
import proofs.«425637_j30339648979201_3_alg».proof.Proof.Gen.KernelIdeal.Skeleton
import proofs.«425637_j30339648979201_3_alg».proof.Proof.Gen.KernelIdeal.Launch
import proofs.«425637_j30339648979201_3_alg».proof.Proof.Gen.KernelIdeal.Points
import proofs.«425637_j30339648979201_3_alg».proof.Proof.Gen.KernelIdeal.Frame
import proofs.«425637_j30339648979201_3_alg».proof.Proof.Gen.ReferenceIdeal
import proofs.«425637_j30339648979201_3_alg».proof.Proof.Gen.ReferenceIdeal.Run
import proofs.«425637_j30339648979201_3_alg».proof.Proof.Gen.ReferenceIdeal.Read
import proofs.«425637_j30339648979201_3_alg».proof.Proof.Gen.Pre_finite_inputs
import proofs.«425637_j30339648979201_3_alg».proof.Proof.RefValue
import proofs.«425637_j30339648979201_3_alg».proof.Proof.KernelResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the specified array of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
